-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8 : Shape := ⟨1, ![8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) (main_arg1 : FVec F S32768x1024 .f32) (main_arg2 : FVec F S32768x1024 .f32) (main_arg3 : IVec S8 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  main_v13
-- ==== Kernel.lean ====
abbrev S32768x1024 : Shape := ⟨2, ![32768, 1024]⟩
abbrev S8 : Shape := ⟨1, ![8]⟩
abbrev S8x4096x1024 : Shape := ⟨3, ![8, 4096, 1024]⟩
abbrev S1x1024x1024 : Shape := ⟨3, ![1, 1024, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S8, .i32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  shapeCasts_S8x4096x1024_S32768x1024 : S8x4096x1024.ShapeCasts S32768x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .f32 = 32 ∨ (Rect.block (s := S8x4096x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8 : Shape := ⟨1, ![8]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S8, .i32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1024, .f32⟩
  | .hbm, ⟨12, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x4096x1024_S8x4096x4096_2_2_1_1_0_0_wf : DotDims.WF S8x4096x1024 S8x4096x1024 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x4096x1024_S8x4096x4096_2_2_1_1_0_0 : DotDims S8x4096x1024 S8x4096x1024 S8x4096x4096 where
  lhsContracting := [2]
  rhsContracting := [2]
  lhsNonContracting := [1]
  rhsNonContracting := [1]
  lhsBatch := [0]
  rhsBatch := [0]
  wf := dot_S8x4096x1024_S8x4096x1024_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Pieces.lean ====
/-
  What one run of the kernel body leaves behind, case by case, as the body's own arithmetic.

  The body keeps a 1024 × 1024 accumulator across grid points. At a point where the hidden-unit tile index is 0
  it first clears the accumulator; at every point it adds one tile's product to it; and at a point where the tile
  index is 3 it also copies the accumulator to the output block. So with `step x w1 w2 acc` the body's update
  (`k0_pay2`), `zero` the cleared accumulator (`k0_pay1`) and `emit` the copy (`k0_pay3`):

      first tile   : accumulator ↦ step x w1 w2 zero
      middle tiles : accumulator ↦ step x w1 w2 acc
      last tile    : accumulator ↦ step x w1 w2 acc,   output block ↦ emit (step x w1 w2 acc).

  Each store and each load goes through the whole buffer, so a stored value is read back unchanged.
-/
import proofs.«148807_j40553081209075_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator, found at `acc`, is left at the update of `acc`. -/
theorem scratch_B (c : Dev nD) (i : grid0.Coords) (arg3 : Memref sig .tc .vmem S1x1024x1024 .f32) (harg3 : arg3.IsWhole)
    (arg4 : Memref sig .tc .vmem S1x1024x1024 .f32) (harg4 : arg4.IsWhole) (arg5 : Memref sig .tc .vmem S1x1024x1024 .f32) (harg5 : arg5.IsWhole)
    (arg6 : Memref sig .tc .vmem S1x1024x1024 .f32) (harg6 : arg6.IsWhole) (arg7 : Memref sig .tc .vmem S1024x1024 .f32) (harg7 : arg7.IsWhole)
    (hc0 : ¬cond0_0 i) (hc1 : ¬cond0_1 i)
    (x0 x1 x2 : Vec F S1x1024x1024 .f32) (acc : Vec F S1024x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero (S := S1024x1024) hz2]
  simp only [View.readAt_eq_ld, harg3.read_unread, harg4.read_unread, harg5.read_unread, harg7.read_unread,
    View.ld_unit_zero (S := S1x1024x1024) hz3, View.ld_unit_zero (S := S1024x1024) hz2]

/-- The last tile: the accumulator is updated in the same way, -/
theorem scratch_C (c : Dev nD) (i : grid0.Coords) (arg3 : Memref sig .tc .vmem S1x1024x1024 .f32) (harg3 : arg3.IsWhole)
    (arg4 : Memref sig .tc .vmem S1x1024x1024 .f32) (harg4 : arg4.IsWhole) (arg5 : Memref sig .tc .vmem S1x1024x1024 .f32) (harg5 : arg5.IsWhole)
    (arg6 : Memref sig .tc .vmem S1x1024x1024 .f32) (harg6 : arg6.IsWhole) (arg7 : Memref sig .tc .vmem S1024x1024 .f32) (harg7 : arg7.IsWhole)
    (hc0 : ¬cond0_0 i) (hc1 : cond0_1 i)
    (x0 x1 x2 : Vec F S1x1024x1024 .f32) (acc : Vec F S1024x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero (S := S1024x1024) hz2]
  simp only [View.readAt_eq_ld, harg3.read_unread, harg4.read_unread, harg5.read_unread, harg7.read_unread,
    View.ld_unit_zero (S := S1x1024x1024) hz3, View.ld_unit_zero (S := S1024x1024) hz2]

/-- and the output block receives the updated accumulator, read back after its store. -/
theorem block_C (c : Dev nD) (i : grid0.Coords) (arg3 : Memref sig .tc .vmem S1x1024x1024 .f32) (harg3 : arg3.IsWhole)
    (arg4 : Memref sig .tc .vmem S1x1024x1024 .f32) (harg4 : arg4.IsWhole) (arg5 : Memref sig .tc .vmem S1x1024x1024 .f32) (harg5 : arg5.IsWhole)
    (arg6 : Memref sig .tc .vmem S1x1024x1024 .f32) (harg6 : arg6.IsWhole) (arg7 : Memref sig .tc .vmem S1024x1024 .f32) (harg7 : arg7.IsWhole)
    (hc0 : ¬cond0_0 i) (hc1 : cond0_1 i)
    (x0 x1 x2 : Vec F S1x1024x1024 .f32) (acc : Vec F S1024x1024 .f32) :
    out0_C_3 c i arg3 harg3 arg4 harg4 arg5 harg5 arg6 harg6 arg7 harg7 hc0 hc1 x0 x1 x2 acc = k0_pay3 (k0_pay2 x0 x1 x2 acc) := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero (S := S1x1024x1024) hz3]
  simp only [View.readAt_eq_ld, harg3.read_unread, harg4.read_unread, harg5.read_unread, harg7.read_unread,
    View.ld_unit_zero (S := S1x1024x1024) hz3, View.ld_unit_zero (S := S1024x1024) hz2,
    View.readCov_unit_zero (S := S1024x1024) _ hz2]

/-- The first tile: the accumulator is cleared, read back, and left at the update of the cleared one. -/
theorem scratch_A (c : Dev nD) (i : grid0.Coords) (arg3 : Memref sig .tc .vmem S1x1024x1024 .f32) (harg3 : arg3.IsWhole)
    (arg4 : Memref sig .tc .vmem S1x1024x1024 .f32) (harg4 : arg4.IsWhole) (arg5 : Memref sig .tc .vmem S1x1024x1024 .f32) (harg5 : arg5.IsWhole)
    (arg6 : Memref sig .tc .vmem S1x1024x1024 .f32) (harg6 : arg6.IsWhole) (arg7 : Memref sig .tc .vmem S1024x1024 .f32) (harg7 : arg7.IsWhole)
    (hc0 : cond0_0 i) (hc1 : ¬cond0_1 i)
    (x0 x1 x2 : Vec F S1x1024x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2]
  simp only [View.readAt_eq_ld, harg3.read_unread, harg4.read_unread, harg5.read_unread,
    View.ld_unit_zero (S := S1x1024x1024) hz3, View.ld_unit_zero (S := S1024x1024) hz2,
    View.readCov_unit_zero (S := S1024x1024) _ hz2]

end Cert.KernelIdeal.Pieces

end
-- ==== Proof.Spec.lean ====
/-
  The grouped two-layer perceptron as ONE function of the three flat argument arrays.

  The 32768 rows of each array fall into 8 groups of 4096 consecutive rows, one group per expert. For a token row
  `g` of expert `e` and an output column `j`,

      out e g j = ∑ f < 4096,  max (∑ k < 1024, X[e·4096 + g, k] · W1[e·4096 + f, k]) 0  ·  W2[e·4096 + f, j],

  a sum over the expert's 4096 hidden units `f` of the rectified first-layer product times the second-layer weight.
  Everything is read over the extended reals, where `+` is commutative and associative (with no exception at the
  infinities), which is all the regrouping below uses.

  The hidden units are cut into 4 tiles of 1024 consecutive units. `tile a` is the part of the sum over tile `a`,
  `upto n` the running total `0 + tile 0 + … + tile n` taken in that order, and `upto_three` says that the running
  total after the last tile is the whole sum.
-/
import Idealize.ShloMosaic.Lib.ValueIdx
import Idealize.ShloMosaic.PureOps.Ideal.Laws
import Mathlib.Algebra.BigOperators.Fin
import Mathlib.Logic.Equiv.Fin.Basic

noncomputable section

namespace Cert.GroupedMlp

open Idealize.ShloMosaic Idealize.ShloMosaic.ValueIdx

/-- A flat argument array: 32768 rows of 1024 extended reals. -/
abbrev Flat : Type := (⟨2, ![32768, 1024]⟩ : Shape).Idx → EReal

/-- Row `g` of expert `e`'s group, as a row of a flat array. -/
def row (e : Fin 8) (g : Fin 4096) : Fin 32768 :=
  ⟨e.val * 4096 + g.val, by have := e.isLt; have := g.isLt; omega⟩

/-- Hidden unit `f` of tile `a` (tiles are counted modulo 4, so that any natural number names one). -/
def tileUnit (a : ℕ) (f : Fin 1024) : Fin 4096 :=
  ⟨a % 4 * 1024 + f.val, by have := f.isLt; have := Nat.mod_lt a (show 0 < 4 by decide); omega⟩

/-- The rectified first-layer product of token row `g` with hidden unit `f` of expert `e`. -/
def hid (X W1 : Flat) (e : Fin 8) (g f : Fin 4096) : EReal :=
  max (∑ k : Fin 1024, X (ix2 (row e g) k) * W1 (ix2 (row e f) k)) 0

/-- Hidden unit `f`'s contribution to output column `j`. -/
def term (X W1 W2 : Flat) (e : Fin 8) (g : Fin 4096) (j : Fin 1024) (f : Fin 4096) : EReal :=
  hid X W1 e g f * W2 (ix2 (row e f) j)

/-- The output entry: the sum of all 4096 contributions. -/
def out (X W1 W2 : Flat) (e : Fin 8) (g : Fin 4096) (j : Fin 1024) : EReal :=
  ∑ f : Fin 4096, term X W1 W2 e g j f

/-- The contributions of tile `a`'s 1024 hidden units. -/
def tile (X W1 W2 : Flat) (e : Fin 8) (g : Fin 4096) (j : Fin 1024) (a : ℕ) : EReal :=
  ∑ f : Fin 1024, term X W1 W2 e g j (tileUnit a f)

/-- The running total after tiles `0 … n`, accumulated from zero in tile order. -/
def upto (T : ℕ → EReal) : ℕ → EReal
  | 0 => 0 + T 0
  | n + 1 => upto T n + T (n + 1)

theorem upto_zero (T : ℕ → EReal) : upto T 0 = 0 + T 0 := rfl
theorem upto_succ (T : ℕ → EReal) (n : ℕ) : upto T (n + 1) = upto T n + T (n + 1) := rfl

/-- A sum over 4096 hidden units is the sum over the 4 tiles of the sums over each tile's 1024 units. -/
theorem sum_tiles (φ : Fin 4096 → EReal) :
    ∑ f : Fin 4096, φ f = ∑ a : Fin 4, ∑ f : Fin 1024, φ (tileUnit a.val f) := by
  rw [← Equiv.sum_comp (finProdFinEquiv (m := 4) (n := 1024)) φ, Fintype.sum_prod_type]
  refine Finset.sum_congr rfl fun a _ => Finset.sum_congr rfl fun f _ => congrArg φ (Fin.ext ?_)
  show f.val + 1024 * a.val = a.val % 4 * 1024 + f.val
  have := a.isLt
  omega

/-- The running total after the fourth tile is the whole sum. -/
theorem upto_three (X W1 W2 : Flat) (e : Fin 8) (g : Fin 4096) (j : Fin 1024) :
    upto (tile X W1 W2 e g j) 3 = out X W1 W2 e g j := by
  unfold out
  rw [sum_tiles, Fin.sum_univ_four]
  simp only [upto, tile, zero_add]
  rfl

/-- The result as an array of 8 × 4096 × 1024 entries (expert, token row, column). -/
def G3 (X W1 W2 : Flat) : (⟨3, ![8, 4096, 1024]⟩ : Shape).Idx → EReal := fun i =>
  out X W1 W2 ⟨(i 0).val, (i 0).isLt⟩ ⟨(i 1).val, (i 1).isLt⟩ ⟨(i 2).val, (i 2).isLt⟩

/-- The result as a flat array: flat row `r` is token row `r % 4096` of expert `r / 4096`. -/
def G (X W1 W2 : Flat) : Flat := fun i =>
  out X W1 W2 ⟨(i 0).val / 4096, by have : (i 0).val < 32768 := (i 0).isLt; omega⟩
    ⟨(i 0).val % 4096, Nat.mod_lt _ (by decide)⟩ ⟨(i 1).val, (i 1).isLt⟩

end Cert.GroupedMlp

end
-- ==== Proof.Blocks.lean ====
/-
  Where the kernel's blocks sit in the flat argument arrays.

  The grid has 8 × 4 × 4 = 128 points, visited in row-major order: point `t` is expert `t / 16`, token tile
  `t / 4 % 4` and hidden-unit tile `t % 4`. Before the region each flat array of 32768 rows is viewed as 8 groups of
  4096 rows (row `e·4096 + g` becomes row `g` of group `e`), and at point `t`

    the token block      is rows  (t/4 % 4)·1024 + p   of group t/16 of `x`,
    both weight blocks   are rows (t % 4)·1024 + f     of group t/16 of `w1` and of `w2`,

  each with all 1024 columns.
-/
import proofs.«148807_j40553081209075_1_alg».proof.Proof.Gen.KernelIdeal.Frame
import proofs.«148807_j40553081209075_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen
open Cert.GroupedMlp (row tileUnit)

variable {F : FTy → Type} [FloatOps F]
variable (m : (ℓ : Loc nD τ sig) → Buf (Elt F) ℓ)

/-- The expert of point `t`. -/
def expert (t : Fin cfg0.N) : Fin 8 :=
  ⟨t.val / 16, by have : t.val < 128 := lt_of_lt_of_eq t.isLt (show cfg0.N = 128 from N_0); omega⟩

/-- Row `p` of point `t`'s token tile, as a row of its expert's group. -/
def tokenRow (t : Fin cfg0.N) (p : Fin 1024) : Fin 4096 :=
  ⟨t.val / 4 % 4 * 1024 + p.val, by have := p.isLt; have := Nat.mod_lt (t.val / 4) (show 0 < 4 by decide); omega⟩

/-- The block index of each window at every point, decided over the grid. -/
theorem index_x : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem index_w1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)
theorem index_w2 : ∀ t : Fin cfg0.N, win0_2.index t 0 = t.val / 16 ∧ win0_2.index t 1 = t.val % 4 ∧ win0_2.index t 2 = 0 :=
  (by decide +kernel : ∀ t : Fin grid0.N, win0_2.index t 0 = t.val / 16 ∧ win0_2.index t 1 = t.val % 4 ∧ win0_2.index t 2 = 0)
theorem index_o : ∀ t : Fin cfg0.N, win0_3.index t 0 = t.val / 16 ∧ win0_3.index t 1 = t.val / 4 % 4 ∧ win0_3.index t 2 = 0 :=
  (by decide +kernel : ∀ t : Fin grid0.N, win0_3.index t 0 = t.val / 16 ∧ win0_3.index t 1 = t.val / 4 % 4 ∧ win0_3.index t 2 = 0)

/-- The three flat arguments, and the grouped views the region finds, each at its literal type. -/
abbrev argX (c : Dev nD) : Vec F S32768x1024 .f32 := m ((c : Thread nD τ).loc main_arg0)
abbrev argW1 (c : Dev nD) : Vec F S32768x1024 .f32 := m ((c : Thread nD τ).loc main_arg1)
abbrev argW2 (c : Dev nD) : Vec F S32768x1024 .f32 := m ((c : Thread nD τ).loc main_arg2)
abbrev grpX (c : Dev nD) : Vec F S8x4096x1024 .f32 := V m c main_v0
abbrev grpW1 (c : Dev nD) : Vec F S8x4096x1024 .f32 := V m c main_v1
abbrev grpW2 (c : Dev nD) : Vec F S8x4096x1024 .f32 := V m c main_v2

/-- A flat array viewed in groups: entry `(e, g, k)` is entry `(e·4096 + g, k)`. -/
theorem grouped_apply (A : Vec F S32768x1024 .f32) (e : Fin 8) (g : Fin 4096) (k : Fin 1024) :
    shapeCast S8x4096x1024 A shapeCasts_S32768x1024_S8x4096x1024 (ix3 e g k) = A (ix2 (row e g) k) :=
  shapeCast_apply A shapeCasts_S32768x1024_S8x4096x1024 _ _ (by
    rw [Shape.rowMajor_val_two, Shape.rowMajor_val_three]
    show (e.val * 4096 + g.val) * 1024 + k.val = (e.val * 4096 + g.val) * 1024 + k.val
    rfl)

/-- The grouped views are the reshapes of the arguments. -/
theorem grpX_eq (c : Dev nD) : grpX m c = shapeCast S8x4096x1024 (argX m c) shapeCasts_S32768x1024_S8x4096x1024 := by
  show StableHlo.after hostOps0 (fun b => m (c, b)) (Proc.devRef .tc main_v0) = _
  after_results; rfl
theorem grpW1_eq (c : Dev nD) : grpW1 m c = shapeCast S8x4096x1024 (argW1 m c) shapeCasts_S32768x1024_S8x4096x1024 := by
  show StableHlo.after hostOps0 (fun b => m (c, b)) (Proc.devRef .tc main_v1) = _
  after_results; rfl
theorem grpW2_eq (c : Dev nD) : grpW2 m c = shapeCast S8x4096x1024 (argW2 m c) shapeCasts_S32768x1024_S8x4096x1024 := by
  show StableHlo.after hostOps0 (fun b => m (c, b)) (Proc.devRef .tc main_v2) = _
  after_results; rfl

/-- The blocks at a point, each at its literal type. -/
abbrev blkX (c : Dev nD) (t : Fin cfg0.N) : Vec F S1x1024x1024 .f32 := iblk m c 0 t
abbrev blkW1 (c : Dev nD) (t : Fin cfg0.N) : Vec F S1x1024x1024 .f32 := iblk m c 1 t
abbrev blkW2 (c : Dev nD) (t : Fin cfg0.N) : Vec F S1x1024x1024 .f32 := iblk m c 2 t

/-- The token block at point `t`, entry `(p, k)`. -/
theorem blkX_apply (c : Dev nD) (t : Fin cfg0.N) (u : Fin 1) (p k : Fin 1024) :
    blkX m c t (ix3 u p k) = argX m c (ix2 (row (expert t) (tokenRow t p)) k) := by
  rw [← grouped_apply (argX m c) (expert t) (tokenRow t p) k, ← grpX_eq]
  show ((cfg0.win 0).blk t).view.read (Elt F) (V m c main_v0) (ix3 u p k) = V m c main_v0 _
  rw [View.read_apply]
  refine congrArg (V m c main_v0) (funext fun a => Fin.ext ?_)
  have hu : u.val = 0 := by omega
  match a with
  | ⟨0, _⟩ => show win0_0.index t 0 * 1 + 1 * u.val = t.val / 16; rw [(index_x t).1, hu]; omega
  | ⟨1, _⟩ => show win0_0.index t 1 * 1024 + 1 * p.val = t.val / 4 % 4 * 1024 + p.val; rw [(index_x t).2.1]; omega
  | ⟨2, _⟩ => show win0_0.index t 2 * 1024 + 1 * k.val = k.val; rw [(index_x t).2.2]; omega

/-- The first-layer weight block at point `t`, entry `(f, k)`. -/
theorem blkW1_apply (c : Dev nD) (t : Fin cfg0.N) (u : Fin 1) (f k : Fin 1024) :
    blkW1 m c t (ix3 u f k) = argW1 m c (ix2 (row (expert t) (tileUnit (t.val % 4) f)) k) := by
  rw [← grouped_apply (argW1 m c) (expert t) (tileUnit (t.val % 4) f) k, ← grpW1_eq]
  show ((cfg0.win 1).blk t).view.read (Elt F) (V m c main_v1) (ix3 u f k) = V m c main_v1 _
  rw [View.read_apply]
  refine congrArg (V m c main_v1) (funext fun a => Fin.ext ?_)
  have hu : u.val = 0 := by omega
  match a with
  | ⟨0, _⟩ => show win0_1.index t 0 * 1 + 1 * u.val = t.val / 16; rw [(index_w1 t).1, hu]; omega
  | ⟨1, _⟩ => show win0_1.index t 1 * 1024 + 1 * f.val = t.val % 4 % 4 * 1024 + f.val; rw [(index_w1 t).2.1]; omega
  | ⟨2, _⟩ => show win0_1.index t 2 * 1024 + 1 * k.val = k.val; rw [(index_w1 t).2.2]; omega

/-- The second-layer weight block at point `t`, entry `(f, q)`. -/
theorem blkW2_apply (c : Dev nD) (t : Fin cfg0.N) (u : Fin 1) (f q : Fin 1024) :
    blkW2 m c t (ix3 u f q) = argW2 m c (ix2 (row (expert t) (tileUnit (t.val % 4) f)) q) := by
  rw [← grouped_apply (argW2 m c) (expert t) (tileUnit (t.val % 4) f) q, ← grpW2_eq]
  show ((cfg0.win 2).blk t).view.read (Elt F) (V m c main_v2) (ix3 u f q) = V m c main_v2 _
  rw [View.read_apply]
  refine congrArg (V m c main_v2) (funext fun a => Fin.ext ?_)
  have hu : u.val = 0 := by omega
  match a with
  | ⟨0, _⟩ => show win0_2.index t 0 * 1 + 1 * u.val = t.val / 16; rw [(index_w2 t).1, hu]; omega
  | ⟨1, _⟩ => show win0_2.index t 1 * 1024 + 1 * f.val = t.val % 4 % 4 * 1024 + f.val; rw [(index_w2 t).2.1]; omega
  | ⟨2, _⟩ => show win0_2.index t 2 * 1024 + 1 * q.val = q.val; rw [(index_w2 t).2.2]; omega

end Cert.KernelIdeal.Blocks

end
-- ==== Proof.Payload.lean ====
import proofs.«148807_j40553081209075_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel body's three payloads, read at an index

At the ideal values (floats are extended reals, a narrowing format change is the identity, a
matrix product into the zero constant is the plain sum of products) the three pure terms the
kernel body stores are:

* the accumulator's initial value: zero everywhere;
* one reduction step: the accumulator plus `relu (A · Bᵀ) · C` over one block of the hidden
  axis, where `A`, `B`, `C` are the three input blocks with their leading unit axis dropped;
* the output block: the accumulator with a leading unit axis added.

Each matrix product is first read at an index over arbitrary operands (the contraction index of
a one-axis contraction is re-indexed through its one coordinate, and each operand's index is
computed axis by axis from the dimension numbers); the payloads are then assembled from these
and the pointwise operations.
-/

noncomputable section

open scoped BigOperators

namespace Cert.KernelIdeal.Payload

open Idealize.ShloMosaic Idealize.ShloMosaic.ValueIdx Cert.KernelIdeal Cert.KernelIdeal.Gen

/-! ## The product `A · Bᵀ`: both operands contracted along their axis 1 -/

/-- The left operand's row is the output's row. -/
theorem lhs_abt_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction coordinate. -/
theorem lhs_abt_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row is the output's column. -/
theorem rhs_abt_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction coordinate. -/
theorem rhs_abt_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- `A · Bᵀ` into the zero constant, at `(p, q)`: the sum over `k` of `A (p, k) * B (q, k)`. -/
theorem matmul_abt_apply (l r : FVec Ideal S1024x1024 .bf16) (p q : Fin 1024) :
    FloatOps.matmul dot_S1024x1024_S1024x1024_S1024x1024_1_1_0_0_n_n none l r (constant (F := Ideal) S1024x1024 .f32 0x00000000#32) (ix2 p q)
      = ∑ k : Fin 1024, l (ix2 p k) * r (ix2 q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_abt_0 _ _
    | ⟨1, _⟩ => exact (lhs_abt_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_abt_0 _ _
    | ⟨1, _⟩ => exact (rhs_abt_1 _ _).trans hk)
  rw [el, er]

/-! ## The plain product `A · B`: the left operand's axis 1 against the right operand's axis 0 -/

/-- The left operand's row is the output's row. -/
theorem lhs_ab_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction coordinate. -/
theorem lhs_ab_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction coordinate. -/
theorem rhs_ab_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the output's column. -/
theorem rhs_ab_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- `A · B` into the zero constant, at `(p, q)`: the sum over `k` of `A (p, k) * B (k, q)`. -/
theorem matmul_ab_apply (l r : FVec Ideal S1024x1024 .bf16) (p q : Fin 1024) :
    FloatOps.matmul dot_S1024x1024_S1024x1024_S1024x1024_1_0_0_1_n_n none l r (constant (F := Ideal) S1024x1024 .f32 0x00000000#32) (ix2 p q)
      = ∑ k : Fin 1024, l (ix2 p k) * r (ix2 k q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_ab_0 _ _
    | ⟨1, _⟩ => exact (lhs_ab_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_ab_0 _ _).trans hk
    | ⟨1, _⟩ => exact rhs_ab_1 _ _)
  rw [el, er]

/-! ## The three payloads -/

/-- The accumulator's initial value: the zero scalar broadcast, cast to its own shape. -/
theorem pay1_apply (p q : Fin 1024) : (k0_pay1 (F := Ideal)) (ix2 p q) = 0 := by
  unfold k0_pay1
  show shapeCast S1024x1024 (broadcast S1024x1024 (Scalar.ofBits (F := Ideal) .f32 0x00000000#32)) shapeCasts_S1024x1024_S1024x1024 (ix2 p q) = 0
  rw [shapeCast_self]
  exact Ideal.ofBits_zero_f32

/-- One reduction step at `(p, q)`: the accumulator plus, summed over the hidden coordinate `f`,
    `max (∑ k, A (p, k) * B (f, k)) 0 * C (f, q)`. The outer product is the plain one, whose left
    operand at `(p, f)` is the rectified inner product `A · Bᵀ` there; the three blocks are read
    with their leading unit axis at `0`. -/
theorem pay2_apply (x0 x1 x2 : FVec Ideal S1x1024x1024 .f32) (acc : FVec Ideal S1024x1024 .f32) (p q : Fin 1024) :
    k0_pay2 (F := Ideal) x0 x1 x2 acc (ix2 p q)
      = acc (ix2 p q) + ∑ f : Fin 1024, max (∑ k : Fin 1024, x0 (ix3 (0 : Fin 1) p k) * x1 (ix3 (0 : Fin 1) f k)) 0 * x2 (ix3 (0 : Fin 1) f q) := by
  unfold k0_pay2
  show shapeCast S1024x1024 (addf acc (FloatOps.matmul dot_S1024x1024_S1024x1024_S1024x1024_1_0_0_1_n_n none
      (truncf .bf16 (maximumf (FloatOps.matmul dot_S1024x1024_S1024x1024_S1024x1024_1_1_0_0_n_n none
          (truncf .bf16 (shapeCast S1024x1024 x0 shapeCasts_S1x1024x1024_S1024x1024) bitsLt_bf16_f32)
          (truncf .bf16 (shapeCast S1024x1024 x1 shapeCasts_S1x1024x1024_S1024x1024) bitsLt_bf16_f32)
          (constant (F := Ideal) S1024x1024 .f32 0x00000000#32))
        (broadcast S1024x1024 (Scalar.ofBits (F := Ideal) .f32 0x00000000#32))) bitsLt_bf16_f32)
      (truncf .bf16 (shapeCast S1024x1024 x2 shapeCasts_S1x1024x1024_S1024x1024) bitsLt_bf16_f32)
      (constant (F := Ideal) S1024x1024 .f32 0x00000000#32))) shapeCasts_S1024x1024_S1024x1024 (ix2 p q) = _
  rw [shapeCast_self]
  refine congrArg (acc (ix2 p q) + ·) ?_
  refine (matmul_ab_apply _ _ p q).trans ?_
  refine Finset.sum_congr rfl fun f _ => ?_
  refine congrArg₂ (· * ·) ?_ (shapeCast_1ab_ab_apply x2 shapeCasts_S1x1024x1024_S1024x1024 f q)
  refine (congrArg₂ max (matmul_abt_apply _ _ p f) Ideal.ofBits_zero_f32).trans ?_
  refine congrArg (max · 0) (Finset.sum_congr rfl fun k _ => ?_)
  exact congrArg₂ (· * ·) (shapeCast_1ab_ab_apply x0 shapeCasts_S1x1024x1024_S1024x1024 p k)
    (shapeCast_1ab_ab_apply x1 shapeCasts_S1x1024x1024_S1024x1024 f k)

/-- The output block at `(u, p, q)`: the accumulator at `(p, q)`. -/
theorem pay3_apply (v : FVec Ideal S1024x1024 .f32) (u : Fin 1) (p q : Fin 1024) :
    k0_pay3 (F := Ideal) v (ix3 u p q) = v (ix2 p q) := by
  unfold k0_pay3
  exact shapeCast_ab_1ab_apply v shapeCasts_S1024x1024_S1x1024x1024 u p q

end Cert.KernelIdeal.Payload

end
-- ==== Proof.Accum.lean ====
/-
  The accumulator after every grid point, and the block written back after the last tile.

  Fix an expert and a token tile. The four points that share them are consecutive (hidden-unit tiles 0, 1, 2, 3), and the
  body's update at tile `a` adds to entry `(p, q)` of the accumulator exactly tile `a`'s contributions

      ∑ f < 1024,  max (∑ k, x[p, k] · w1[a·1024 + f, k]) 0 · w2[a·1024 + f, q]

  to output entry `(token row p, column q)`. Tile 0 starts from the cleared accumulator, so after tile `a` the accumulator
  holds the running total `0 + tile 0 + … + tile a` (by induction on the point: a point with `a ≠ 0` has the same expert
  and token tile as the point before it). After tile 3 that is the whole sum over the 4096 hidden units, which is what
  the block written back there holds.
-/
import proofs.«148807_j40553081209075_1_alg».proof.Proof.Pieces
import proofs.«148807_j40553081209075_1_alg».proof.Proof.Blocks
import proofs.«148807_j40553081209075_1_alg».proof.Proof.Payload
import proofs.«148807_j40553081209075_1_alg».proof.Proof.Spec

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks
open Cert.GroupedMlp (row tileUnit hid term tile upto out)

variable (m : (ℓ : Loc nD τ sig) → Buf (Elt Ideal) ℓ)

/-- Tile `a`'s contributions to the output entries of point `t`'s token tile. -/
abbrev tileAt (c : Dev nD) (t : Fin cfg0.N) (p q : Fin 1024) (a : ℕ) : EReal :=
  tile (argX m c) (argW1 m c) (argW2 m c) (expert t) (tokenRow t p) q a

/-- The body's update at point `t`, at entry `(p, q)`: the accumulator's entry plus the point's own tile. -/
theorem update_apply (c : Dev nD) (t : Fin cfg0.N) (prev : FVec Ideal S1024x1024 .f32) (p q : Fin 1024) :
    k0_pay2 (F := Ideal) (blkX m c t) (blkW1 m c t) (blkW2 m c t) prev (ix2 p q)
      = prev (ix2 p q) + tileAt m c t p q (t.val % 4) := by
  refine (Payload.pay2_apply (blkX m c t) (blkW1 m c t) (blkW2 m c t) prev p q).trans ?_
  refine congrArg (prev (ix2 p q) + ·) (Finset.sum_congr rfl fun f _ => ?_)
  show max (∑ k : Fin 1024, blkX m c t (ix3 (0 : Fin 1) p k) * blkW1 m c t (ix3 (0 : Fin 1) f k)) 0 * blkW2 m c t (ix3 (0 : Fin 1) f q)
    = hid (argX m c) (argW1 m c) (expert t) (tokenRow t p) (tileUnit (t.val % 4) f)
        * argW2 m c (ix2 (row (expert t) (tileUnit (t.val % 4) f)) q)
  rw [blkW2_apply m c t 0 f q]
  refine congrArg (· * _) ?_
  unfold hid
  refine congrArg (max · 0) (Finset.sum_congr rfl fun k _ => ?_)
  rw [blkX_apply m c t 0 p k, blkW1_apply m c t 0 f k]

/-- The running total of the tiles up to point `n`'s own, for the entries of its token tile. -/
def total (c : Dev nD) (n : ℕ) (h : n < cfg0.N) : FVec Ideal S1024x1024 .f32 := fun i =>
  upto (tileAt m c ⟨n, h⟩ ⟨(i 0).val, (i 0).isLt⟩ ⟨(i 1).val, (i 1).isLt⟩) (n % 4)

theorem total_apply (c : Dev nD) (n : ℕ) (h : n < cfg0.N) (p q : Fin 1024) :
    total m c n h (ix2 p q) = upto (tileAt m c ⟨n, h⟩ p q) (n % 4) := rfl

/-- A point that is not a first tile has the expert and the token rows of the point before it. -/
theorem tileAt_pred (c : Dev nD) (n : ℕ) (h : n + 1 < cfg0.N) (h0 : ¬(n + 1) % 4 = 0) (p q : Fin 1024) :
    tileAt m c ⟨n + 1, h⟩ p q = tileAt m c ⟨n, Nat.lt_of_succ_lt h⟩ p q := by
  have he : expert ⟨n + 1, h⟩ = expert ⟨n, Nat.lt_of_succ_lt h⟩ := Fin.ext (by show (n + 1) / 16 = n / 16; omega)
  have hr : tokenRow ⟨n + 1, h⟩ p = tokenRow ⟨n, Nat.lt_of_succ_lt h⟩ p :=
    Fin.ext (by show (n + 1) / 4 % 4 * 1024 + p.val = n / 4 % 4 * 1024 + p.val; omega)
  unfold tileAt
  rw [he, hr]

/-- THE INVARIANT: after point `n` the accumulator holds the running total. -/
theorem scratch_eq (c : Dev nD) : ∀ (n : ℕ) (h : n < cfg0.N), (outsAt0 m c n h).2 = total m c n h
  | 0, h => by
    rw [outsAt0_A m c ⟨0, h⟩ rfl (show ¬(0 % 4 = 3) by decide)]
    dsimp only
    refine (Pieces.scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _) _ _
      (iblk m c 0 ⟨0, h⟩) (iblk m c 1 ⟨0, h⟩) (iblk m c 2 ⟨0, h⟩)).trans ?_
    funext i
    obtain ⟨p, q, rfl⟩ : ∃ (p q : Fin 1024), i = ix2 p q := ⟨i 0, i 1, eq_ix2 i⟩
    refine (update_apply m c ⟨0, h⟩ (k0_pay1 (F := Ideal)) p q).trans ?_
    rw [Payload.pay1_apply p q, total_apply]
    rfl
  | n + 1, h => by
    have hN : n + 1 < 128 := lt_of_lt_of_eq h (show cfg0.N = 128 from N_0)
    by_cases h0 : (n + 1) % 4 = 0
    · have h1 : ¬(n + 1) % 4 = 3 := by omega
      rw [outsAt0_A m c ⟨n + 1, h⟩ h0 h1]
      dsimp only
      refine (Pieces.scratch_A (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (iblk m c 0 ⟨n + 1, h⟩) (iblk m c 1 ⟨n + 1, h⟩) (iblk m c 2 ⟨n + 1, h⟩)).trans ?_
      funext i
      obtain ⟨p, q, rfl⟩ : ∃ (p q : Fin 1024), i = ix2 p q := ⟨i 0, i 1, eq_ix2 i⟩
      refine (update_apply m c ⟨n + 1, h⟩ (k0_pay1 (F := Ideal)) p q).trans ?_
      rw [Payload.pay1_apply p q, total_apply]
      show 0 + tileAt m c ⟨n + 1, h⟩ p q ((n + 1) % 4) = upto (tileAt m c ⟨n + 1, h⟩ p q) ((n + 1) % 4)
      rw [h0]
      rfl
    · have hstep : ∀ p q : Fin 1024,
          total m c n (Nat.lt_of_succ_lt h) (ix2 p q) + tileAt m c ⟨n + 1, h⟩ p q ((n + 1) % 4) = total m c (n + 1) h (ix2 p q) := by
        intro p q
        rw [total_apply, total_apply, tileAt_pred m c n h h0 p q, show (n + 1) % 4 = n % 4 + 1 by omega]
        rfl
      by_cases h1 : (n + 1) % 4 = 3
      · rw [outsAt0_C m c ⟨n + 1, h⟩ h0 h1]
        dsimp only
        refine (Pieces.scratch_C (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) _ _
          (iblk m c 0 ⟨n + 1, h⟩) (iblk m c 1 ⟨n + 1, h⟩) (iblk m c 2 ⟨n + 1, h⟩) (outsAt0 m c n (Nat.lt_of_succ_lt h)).2).trans ?_
        rw [scratch_eq c n (Nat.lt_of_succ_lt h)]
        funext i
        obtain ⟨p, q, rfl⟩ : ∃ (p q : Fin 1024), i = ix2 p q := ⟨i 0, i 1, eq_ix2 i⟩
        exact (update_apply m c ⟨n + 1, h⟩ (total m c n (Nat.lt_of_succ_lt h)) p q).trans (hstep p q)
      · rw [outsAt0_B m c ⟨n + 1, h⟩ h0 h1]
        dsimp only
        refine (Pieces.scratch_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _) _ _
          (iblk m c 0 ⟨n + 1, h⟩) (iblk m c 1 ⟨n + 1, h⟩) (iblk m c 2 ⟨n + 1, h⟩) (outsAt0 m c n (Nat.lt_of_succ_lt h)).2).trans ?_
        rw [scratch_eq c n (Nat.lt_of_succ_lt h)]
        funext i
        obtain ⟨p, q, rfl⟩ : ∃ (p q : Fin 1024), i = ix2 p q := ⟨i 0, i 1, eq_ix2 i⟩
        exact (update_apply m c ⟨n + 1, h⟩ (total m c n (Nat.lt_of_succ_lt h)) p q).trans (hstep p q)

/-- THE BLOCK WRITTEN BACK at a last-tile point `t`: entry `(p, q)` is the whole sum over the hidden units. -/
theorem block_apply (c : Dev nD) (t : Fin cfg0.N) (h3 : t.val % 4 = 3) (u : Fin 1) (p q : Fin 1024) :
    (outsAt0 m c t.val t.isLt).1 (ix3 u p q)
      = out (argX m c) (argW1 m c) (argW2 m c) (expert t) (tokenRow t p) q := by
  obtain ⟨n, h⟩ := t
  have h0 : ¬n % 4 = 0 := by dsimp only at h3; omega
  cases n with
  | zero => exact absurd rfl h0
  | succ n =>
    have hs := scratch_eq m c (n + 1) h
    rw [outsAt0_C m c ⟨n + 1, h⟩ h0 h3] at hs ⊢
    dsimp only at hs ⊢
    refine (congrFun (Pieces.block_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _) _ _
      (iblk m c 0 ⟨n + 1, h⟩) (iblk m c 1 ⟨n + 1, h⟩) (iblk m c 2 ⟨n + 1, h⟩) _) (ix3 u p q)).trans ?_
    refine (Payload.pay3_apply _ u p q).trans ?_
    have hs' := (Pieces.scratch_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _) _ _
      (iblk m c 0 ⟨n + 1, h⟩) (iblk m c 1 ⟨n + 1, h⟩) (iblk m c 2 ⟨n + 1, h⟩) _).symm.trans hs
    rw [hs', total_apply, show (n + 1) % 4 = 3 from h3]
    exact Cert.GroupedMlp.upto_three _ _ _ _ _ _

end Cert.KernelIdeal.Accum

end
-- ==== Proof.KernelValue.lean ====
/-
  What the idealized kernel program computes: its result array is the specification's `G` of its three flat arguments.

  The region's output array has 8 × 4096 × 1024 entries. The point of expert `e`, token tile `b` and hidden-unit tile 3
  writes back rows `b·1024 … b·1024 + 1023` of group `e`, holding at `(p, q)` the whole sum over the 4096 hidden units
  for token row `b·1024 + p` and column `q`: block `(e, b)` of the grouped result `G3`. Every entry `(e, g, j)` lies in
  the block of the point `((e·4 + g / 1024)·4 + 3)`, so after the run the array is `G3`; the reshape that follows the
  region flattens it (entry `(r, j)` of the flat array is entry `(r / 4096, r % 4096, j)`), which is `G`.
-/
import proofs.«148807_j40553081209075_1_alg».proof.Proof.Accum

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks
open Cert.GroupedMlp (row tileUnit out G3 G)

variable (m : (ℓ : Loc nD τ sig) → Buf (Elt Ideal) ℓ) (ρ : Dev nD → PrngReg)

/-- The grouped result, as contents of the region's output array. -/
abbrev grouped (c : Dev nD) : Buf (Elt Ideal) ((c : Thread nD τ).loc main_v3) :=
  G3 (argX m c) (argW1 m c) (argW2 m c)

/-- The flat result, as contents of the program's result array. -/
abbrev flat (c : Dev nD) : Buf (Elt Ideal) ((c : Thread nD τ).loc main_v4) :=
  G (argX m c) (argW1 m c) (argW2 m c)

/-- Entry `y` of the block a last-tile point leaves is the grouped result where the block sits in the array. -/
theorem block_entry (c : Dev nD) (t : Fin cfg0.N) (h3 : t.val % 4 = 3) (y : S1x1024x1024.Idx) :
    (outsAt0 m c t.val t.isLt).1 y = grouped m c (((cfg0.win 3).blk t).view.emb y) := by
  obtain ⟨u, p, q, rfl⟩ : ∃ (u : Fin 1) (p q : Fin 1024), y = ix3 u p q := ⟨y 0, y 1, y 2, eq_ix3 y⟩
  rw [Accum.block_apply m c t h3 u p q]
  have hu : u.val = 0 := by omega
  have e0 : (((cfg0.win 3).blk t).view.emb (ix3 u p q) 0).val = t.val / 16 := by
    show win0_3.index t 0 * 1 + 1 * u.val = t.val / 16; rw [(index_o t).1, hu]; omega
  have e1 : (((cfg0.win 3).blk t).view.emb (ix3 u p q) 1).val = t.val / 4 % 4 * 1024 + p.val := by
    show win0_3.index t 1 * 1024 + 1 * p.val = t.val / 4 % 4 * 1024 + p.val; rw [(index_o t).2.1]; omega
  have e2 : (((cfg0.win 3).blk t).view.emb (ix3 u p q) 2).val = q.val := by
    show win0_3.index t 2 * 1024 + 1 * q.val = q.val; rw [(index_o t).2.2]; omega
  show out _ _ _ (expert t) (tokenRow t p) q = out _ _ _ _ _ _
  exact congr (congr (congrArg (out (argX m c) (argW1 m c) (argW2 m c)) (Fin.ext e0.symm)) (Fin.ext e1.symm)) (Fin.ext e2.symm)

/-- WHAT A LAST-TILE POINT WRITES BACK is its block of the grouped result. -/
theorem flushed_eq (c : Dev nD) (t : Fin cfg0.N) (hf : (cfg0.win 3).flush t = true) :
    (dats m 0 c).flushed 3 t = ((cfg0.win 3).blk t).view.read (Elt Ideal) (grouped m c) := by
  have h3 : t.val % 4 = 3 := (flush0_3 t).mp hf
  show (cfg0.win 3).cut (grid0.coords t) ((dats m 0 c).after 3 t) = _
  rw [after0_3]
  exact funext fun y => block_entry m c t h3 y

/-- Every entry of the output array lies in the block of a last-tile point. -/
theorem covered (i : S8x4096x1024.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hN : cfg0.N = 128 := N_0
  have hlt : ((i 0).val * 4 + (i 1).val / 1024) * 4 + 3 < cfg0.N := by rw [hN]; omega
  refine ⟨⟨((i 0).val * 4 + (i 1).val / 1024) * 4 + 3, hlt⟩, (flush0_3 _).mpr (by show (((i 0).val * 4 + (i 1).val / 1024) * 4 + 3) % 4 = 3; omega), ?_⟩
  obtain ⟨e0, e1, e2⟩ := index_o ⟨((i 0).val * 4 + (i 1).val / 1024) * 4 + 3, hlt⟩
  show i ∈ ((View.whole main_v3).slice (win0_3.rect ⟨((i 0).val * 4 + (i 1).val / 1024) * 4 + 3, hlt⟩)).set
  rw [View.set_slice_whole, Rect.mem_set_unit]
  intro a
  match a with
  | ⟨0, _⟩ =>
    show win0_3.index ⟨((i 0).val * 4 + (i 1).val / 1024) * 4 + 3, hlt⟩ 0 * 1 ≤ (i 0).val ∧ (i 0).val < win0_3.index ⟨((i 0).val * 4 + (i 1).val / 1024) * 4 + 3, hlt⟩ 0 * 1 + 1
    rw [e0]; dsimp only; omega
  | ⟨1, _⟩ =>
    show win0_3.index ⟨((i 0).val * 4 + (i 1).val / 1024) * 4 + 3, hlt⟩ 1 * 1024 ≤ (i 1).val ∧ (i 1).val < win0_3.index ⟨((i 0).val * 4 + (i 1).val / 1024) * 4 + 3, hlt⟩ 1 * 1024 + 1024
    rw [e1]; dsimp only; omega
  | ⟨2, _⟩ =>
    show win0_3.index ⟨((i 0).val * 4 + (i 1).val / 1024) * 4 + 3, hlt⟩ 2 * 1024 ≤ (i 2).val ∧ (i 2).val < win0_3.index ⟨((i 0).val * 4 + (i 1).val / 1024) * 4 + 3, hlt⟩ 2 * 1024 + 1024
    rw [e2]; omega

/-- THE OUTPUT ARRAY after the region is the grouped result. -/
theorem final (c : Dev nD) : (dats m 0 c).arrAt 3 cfg0.N = grouped m c :=
  (dats m 0 c).arrAt_eq_of_cover 3 (grouped m c) (flushed_eq m c) (fun i => covered i)

/-- Flattening the grouped result gives the flat result: flat row `r` is row `r % 4096` of group `r / 4096`. -/
theorem flatten_eq (X W1 W2 : Cert.GroupedMlp.Flat) :
    shapeCast S32768x1024 (G3 X W1 W2 : Vec Ideal S8x4096x1024 .f32) shapeCasts_S8x4096x1024_S32768x1024 = G X W1 W2 := by
  funext i
  obtain ⟨r, j, rfl⟩ : ∃ (r : Fin 32768) (j : Fin 1024), i = ix2 r j := ⟨i 0, i 1, eq_ix2 i⟩
  have hr : r.val < 32768 := r.isLt
  refine (shapeCast_apply (s := S8x4096x1024) (t := S32768x1024) (G3 X W1 W2) shapeCasts_S8x4096x1024_S32768x1024 (ix2 r j)
    (ix3 (⟨r.val / 4096, by omega⟩ : Fin 8) (⟨r.val % 4096, Nat.mod_lt _ (by decide)⟩ : Fin 4096) j) (by
      rw [Shape.rowMajor_val_three, Shape.rowMajor_val_two]
      show (r.val / 4096 * 4096 + r.val % 4096) * 1024 + j.val = r.val * 1024 + j.val
      omega)).trans ?_
  rfl

/-- The reshape after the region, applied to what the region leaves, is the flat result. -/
theorem tail_eq (c : Dev nD) :
    Pipeline.afterTail₀ cfgs (dats m) 0 (V0 m) [hostOps1] c main_v4 = flat m c := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v4) = _
  after_results
  show (fun i => shapeCast S32768x1024 (Pipeline.withArrays spec0 c (V0 m c) (fun w => (dats m 0 c).arrAt w cfg0.N)
      (Proc.devRef .tc (Pipeline.arrRef spec0 3))) shapeCasts_S8x4096x1024_S32768x1024 i) = flat m c
  rw [hw]
  exact flatten_eq (argX m c) (argW1 m c) (argW2 m c)

/-- THE RUN: every weakly fair execution ends with the result array at `G` of the arguments, which are unchanged. -/
theorem run : θ_run defs (onTc (τ := τ) (main (F := Ideal))) ⟨m, fun _ => 0, ρ⟩ fun r => ∀ c : Dev nD,
      r.2.mem ((c.tc : Thread nD τ).loc main_v4) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefSide.lean ====
/-
  The reference program computes the grouped two-layer perceptron of the specification.

  The program reshapes each flat array of 32768 rows into 8 groups of 4096 rows, multiplies the token rows with the
  first-layer rows inside each group (a sum over the 1024 columns), takes the maximum with zero, multiplies the result
  with the second-layer rows inside each group (a sum over the 4096 hidden units), and flattens the 8 x 4096 rows back.
  Reading it one operation at a time, from the result inwards, every composed index is entry (e * 4096 + g, k) of a flat
  array, which is how the specification reads the arrays; so the program's result is the specification's `G`, with the
  same order of the factors in both products.
-/
import proofs.«148807_j40553081209075_1_alg».proof.Proof.Gen.ReferenceIdeal.Run
import proofs.«148807_j40553081209075_1_alg».proof.Proof.Gen.ReferenceIdeal.Read
import proofs.«148807_j40553081209075_1_alg».proof.Proof.Spec
import Idealize.ShloMosaic.Lib.ValueIdx
import Idealize.ShloMosaic.PureOps.Ideal.Laws

noncomputable section

namespace Cert.ReferenceIdeal.RefSide

open Cert.ReferenceIdeal Cert.ReferenceIdeal.Read Cert.GroupedMlp
open Idealize.ShloMosaic Idealize.ShloMosaic.ValueIdx

/-- A flat argument array of the reference program. -/
abbrev Arg : Type := (⟨S32768x1024, .f32⟩ : BufTy).Contents (Elt Ideal)

/-- Entry `(e, g, k)` of a regrouped array is entry `(e * 4096 + g, k)` of the flat one. -/
theorem regroup_idx (e : Fin 8) (g : Fin 4096) (k : Fin 1024) :
    idx_main_v0 (ix3 e g k) = ix2 (row e g) k := by
  have he := e.isLt
  have hg := g.isLt
  have hk := k.isLt
  exact funext fun a => Fin.ext (by
    match a with
    | ⟨0, _⟩ =>
      show ((e.val * 4096 + g.val) * 1024 + k.val) / 1024 = e.val * 4096 + g.val
      omega
    | ⟨1, _⟩ =>
      show ((e.val * 4096 + g.val) * 1024 + k.val) % 1024 = k.val
      omega)

/-- The first product: token row `g` of expert `e` against first-layer row `f` of the same expert. -/
theorem first_product (X W1 : Arg) (e : Fin 8) (g f : Fin 4096) :
    val_main_v3 (F := Ideal) X W1 (ix3 e g f)
      = ∑ k : Fin 1024, X (ix2 (row e g) k) * W1 (ix2 (row e f) k) := by
  rw [val_main_v3_apply]
  refine Finset.sum_congr rfl fun k _ => ?_
  rw [val_main_v2_apply, val_main_v0_apply]
  have hl : idx_main_v2 (lidx_main_v3 (ix3 e g f) k) = ix2 (row e g) k := regroup_idx e g k
  have hr : idx_main_v0 (ridx_main_v3 (ix3 e g f) k) = ix2 (row e f) k := regroup_idx e f k
  rw [hl, hr]

/-- The rectified first product is the specification's hidden value. -/
theorem rectified (X W1 : Arg) (e : Fin 8) (g f : Fin 4096) :
    val_main_v4 (F := Ideal) X W1 (ix3 e g f) = hid X W1 e g f := by
  rw [val_main_v4_apply, first_product, val_main_call0_v0_apply, val_main_call0_cst_apply,
    Ideal.ofBits_def, Ideal.ofBits_zero_f32]
  rfl

/-- The second product is the specification's output entry. -/
theorem second_product (X W1 W2 : Arg) (e : Fin 8) (g : Fin 4096) (j : Fin 1024) :
    val_main_v5 (F := Ideal) X W1 W2 (ix3 e g j) = out X W1 W2 e g j := by
  rw [val_main_v5_apply]
  unfold out term
  refine Finset.sum_congr rfl fun f _ => ?_
  have hl : lidx_main_v5 (ix3 e g j) f = ix3 e g f := funext fun a => Fin.ext (by
    match a with
    | ⟨0, _⟩ => rfl
    | ⟨1, _⟩ => rfl
    | ⟨2, _⟩ => rfl)
  have hr : idx_main_v1 (ridx_main_v5 (ix3 e g j) f) = ix2 (row e f) j := regroup_idx e f j
  rw [hl, rectified, val_main_v1_apply, hr]

/-- The reference program's result is the specification's `G`. -/
theorem ref_eq_G (X W1 W2 : (⟨Cert.ReferenceIdeal.S32768x1024, .f32⟩ : BufTy).Contents (Elt Ideal)) :
    Cert.ReferenceIdeal.Read.val_main_v6 (F := Ideal) X W1 W2 = Cert.GroupedMlp.G X W1 W2 := by
  funext i
  obtain ⟨r, j, rfl⟩ : ∃ (r : Fin 32768) (j : Fin 1024), i = ix2 r j := ⟨i 0, i 1, eq_ix2 i⟩
  have hr := r.isLt
  have hj := j.isLt
  rw [val_main_v6_apply]
  have hi : idx_main_v6 (ix2 r j)
      = ix3 (⟨r.val / 4096, by omega⟩ : Fin 8) (⟨r.val % 4096, Nat.mod_lt _ (by decide)⟩ : Fin 4096) j :=
    funext fun a => Fin.ext (by
      match a with
      | ⟨0, _⟩ =>
        show (r.val * 1024 + j.val) / 4194304 = r.val / 4096
        omega
      | ⟨1, _⟩ =>
        show (r.val * 1024 + j.val) / 1024 % 4096 = r.val % 4096
        omega
      | ⟨2, _⟩ =>
        show (r.val * 1024 + j.val) % 1024 = j.val
        omega)
  rw [hi, second_product]
  rfl

end Cert.ReferenceIdeal.RefSide

end
-- ==== Proof.lean ====
/-
  A grouped two-layer perceptron, tiled over its hidden units, against two batched matrix products.

  The 32768 token rows of `x` and the 32768 weight rows of `w1` and of `w2` fall into 8 groups of 4096 rows, one per
  expert. Both programs compute, for token row `g` of expert `e` and column `j`,

      out e g j = ∑ f < 4096,  max (∑ k < 1024, x[e, g, k] · w1[e, f, k]) 0 · w2[e, f, j].

  The reference takes the two products whole. The kernel cuts the token rows into tiles of 1024 and the hidden units
  `f` into 4 tiles of 1024, keeps an accumulator per token tile, clears it at the first hidden-unit tile, adds one tile's
  product at each of the four, and writes it out after the last. Over the extended reals addition is commutative and
  associative, so the running total `0 + tile 0 + tile 1 + tile 2 + tile 3` is the whole sum; the changes of float
  format in the kernel are the identity there, and the fourth argument is read by neither program. Nothing in the
  argument needs the inputs to be finite.

  The modules: Spec (the function `G` and the tiled sum), RefSide (the reference computes `G`), Payload (the kernel
  body's arithmetic at an index), Pieces (what one run of the body leaves), Blocks (where the blocks sit in the arrays),
  Accum (the accumulator after every point, by induction on the point), KernelValue (the kernel computes `G`).
-/
import proofs.«148807_j40553081209075_1_alg».proof.Defs
import proofs.«148807_j40553081209075_1_alg».proof.Proof.Gen.Kernel
import proofs.«148807_j40553081209075_1_alg».proof.Proof.Gen.Kernel.Frame
import proofs.«148807_j40553081209075_1_alg».proof.Proof.Gen.KernelIdeal
import proofs.«148807_j40553081209075_1_alg».proof.Proof.Gen.KernelIdeal.Frame
import proofs.«148807_j40553081209075_1_alg».proof.Proof.Gen.ReferenceIdeal
import proofs.«148807_j40553081209075_1_alg».proof.Proof.Gen.ReferenceIdeal.Run
import proofs.«148807_j40553081209075_1_alg».proof.Proof.Gen.ReferenceIdeal.Read
import proofs.«148807_j40553081209075_1_alg».proof.Proof.Gen.Pre_finite_inputs
import proofs.«148807_j40553081209075_1_alg».proof.Proof.KernelValue
import proofs.«148807_j40553081209075_1_alg».proof.Proof.RefSide

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at `G` of arguments that agree. -/
theorem algebraic : Cert.algebraic_KernelIdeal_ReferenceIdeal := by
  intro m ρ m' ρ' _ hagree
  refine ⟨fun c => Cert.KernelIdeal.KernelValue.flat m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefSide.ref_eq_G,
    (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
